-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S16384 : Shape := ⟨1, ![16384]⟩
abbrev S_ : Shape := ⟨0, ![]⟩

class Facts : Prop where

variable [Facts]

def fn {F : FTy → Type} [FloatOps F] (main_arg0 : IVec S16384 32) : IVec S_ 1 :=
  let main_c : IVec S_ 1 := constantI S_ 1 1#1
  main_c
-- ==== Kernel.lean ====
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x16384 : Shape := ⟨2, ![16384, 16384]⟩
abbrev S1024x64 : Shape := ⟨2, ![1024, 64]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384, .i32⟩
  | .hbm, ⟨1, _⟩ => ⟨S16384x1, .i32⟩
  | .hbm, ⟨2, _⟩ => ⟨S1x64, .i32⟩
  | .hbm, ⟨3, _⟩ => ⟨S16384x64, .i32⟩
  | .hbm, ⟨4, _⟩ => ⟨S16384x64, .i32⟩
  | .hbm, ⟨5, _⟩ => ⟨S16384x64, .i1⟩
  | .hbm, ⟨6, _⟩ => ⟨S16384x64, .bf16⟩
  | .hbm, ⟨7, _⟩ => ⟨S16384x16384, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1024, .f32⟩
  | .local _ .vmem, ⟨5, _⟩ => ⟨S1024x1024, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .bf16 = 32 ∨ (Rect.block (s := S16384x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .bf16 = 32 ∨ (Rect.block (s := S16384x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x16384.size a
  hwx0_2 : ∀ i : grid0.Coords, EltTy.bits .f32 = 32 ∨ (Rect.block (s := S16384x16384) S1024x1024.size (cc0_transform_2 i) (hinb0_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S64x16384 : Shape := ⟨2, ![64, 16384]⟩
abbrev S16384x16384 : Shape := ⟨2, ![16384, 16384]⟩

abbrev nBuf : Space → Nat
  | .hbm => 9
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x1, .i32⟩
  | .hbm, ⟨2, _⟩ => ⟨S1x64, .i32⟩
  | .hbm, ⟨3, _⟩ => ⟨S16384x64, .i32⟩
  | .hbm, ⟨4, _⟩ => ⟨S16384x64, .i32⟩
  | .hbm, ⟨5, _⟩ => ⟨S16384x64, .i1⟩
  | .hbm, ⟨6, _⟩ => ⟨S16384x64, .f32⟩
  | .hbm, ⟨7, _⟩ => ⟨S64x16384, .f32⟩
  | .hbm, ⟨8, _⟩ => ⟨S16384x16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  transposes_S16384x64_S64x16384_1_0 : S16384x64.Transposes [1, 0] S64x16384
  dot_S16384x64_S64x16384_S16384x16384_1_0_0_1_n_n_wf : DotDims.WF S16384x64 S64x16384 S16384x16384 [1] [0] [0] [1] [] []

variable [Facts₀]

def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.KernelFrame.lean ====
/-
  The run of the one-hot Gram kernel's program, and its frame.

  The program one-hot encodes the label vector on the host (six elementwise operations) and hands the encoding
  `oh : [16384, 64]` to ONE kernel region TWICE: the region's first window walks `oh` by row blocks indexed by the
  grid's first coordinate, its second window walks the SAME array by row blocks indexed by the second coordinate,
  and the third window is the [16384, 16384] result, one 1024 × 1024 block per grid point. Two input windows on one
  array means the region holds that array twice; so the array's full share is dealt in halves, one half to each
  window (both only read it), and the region is entered through the launch theorem that lets the certificate
  say how the buffers behind the arrays are divided among the windows.

  What is proved here, at any float instance: what the body leaves in the result window's buffer at a point (the
  matrix product of the two input blocks), the body's triple, the pipeline's proof data, the body obligation,
  the run of @main with every array of the region at what the pipeline computes and every other buffer as the
  region found it, and from that run the frame: the label vector ends as it was launched.
-/
import proofs.«108739_j89764816486452_1_alg».proof.Proof.Gen.Kernel.Launch
import proofs.«108739_j89764816486452_1_alg».proof.Proof.Gen.Kernel.Skeleton
import proofs.«108739_j89764816486452_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations of the
    one-hot encoding. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the label vector: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The first input window's current buffer holds its block at every point, fetched there or not (where it is not
    fetched the block index has not moved), for any proof data over `V` whose body leaves the block in place. -/
theorem before0_0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The same for the second input window. -/
theorem before0_1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-! ## The body -/

abbrev rIn : Rect S1024x64 := Rect.unit (s := S1024x64) ![0, 0] S1024x64.size inb_S1024x64_S1024x64_0_0
abbrev rOut : Rect S1024x1024 := Rect.unit (s := S1024x1024) ![0, 0] S1024x1024.size inb_S1024x1024_S1024x1024_0_0

/-- What the body leaves in the result window's buffer, from the two input blocks: its one store, of the product of
    the first block with the transposed second. -/
def outBlk (x0 : Vec F S1024x64 .bf16) (x1 : Vec F S1024x64 .bf16) : Vec F S1024x1024 .f32 :=
  View.canon [⟨rOut, k0_pay1 (View.ld x0 rIn) (View.ld x1 rIn)⟩]

/-- The store is of the whole buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs' at contents `x0`, `x1` and the result's at anything: it loads the
    two blocks, loads the result buffer (a value it never uses), stores the product over the whole result buffer,
    and returns with the inputs as they were. -/
theorem sound_kernel (c : Dev nD) (E : Set ℕ) (i : grid0.Coords)
    (arg2 : Memref sig .tc .vmem S1024x64 .bf16) (harg2 : arg2.IsWhole)
    (arg3 : Memref sig .tc .vmem S1024x64 .bf16) (harg3 : arg3.IsWhole)
    (arg4 : Memref sig .tc .vmem S1024x1024 .f32) (harg4 : arg4.IsWhole)
    (x0 : Vec F S1024x64 .bf16) (x1 : Vec F S1024x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk x0 x1)) -∗ K ⟨⟩))
      ⊢ wp frame (wpE (defs₀ (F := F)) Variants.none c none) E
          (cc0__eq_matmul_kernel i arg2 harg2 arg3 harg3 arg4 harg4) K := by
  simp only [cc0__eq_matmul_kernel_eq_skeleton]; unfold cc0__eq_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data on core `c`: the arrays as the region finds them; after the body at point `t` each input's buffer
    at its block and the result's at the product of the two blocks; nothing carried between points and nothing owed;
    the one-hot array's share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := BI.emp
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## The arrays at entry: one array, two readers -/

/-- The two distinct buffers behind the three windows' arrays, each whole, make the region's three holdings: the
    one-hot array's full share splits into its two halves, one per reading window; the result array goes whole to
    the window that writes it. -/
theorem hsplit (c : Dev nD) :
    (Pipeline.arrBufs spec0 c (V m c) : sProp 𝕄) ⊢ (dats m 0 c).arrays ((dats m 0 c).arrAt · 0) := by
  have himg : Finset.univ.image (Pipeline.arrRef spec0) = {main_v0, main_v1} := by decide
  have harr : (dats m 0 c).arrays ((dats m 0 c).arrAt · 0)
      = bigSep Finset.univ fun w : Fin 3 =>
          ((((c : Thread nD τ).loc (Pipeline.arrRef spec0 w)) ↦{(dats m 0 c).share w} (dats m 0 c).arrAt w 0) : sProp 𝕄) := by
    unfold Dat.arrays
    exact bigSep_congr fun w _ => by rw [(arr_whole0 w).set_eq_univ]
  have hbufs : (Pipeline.arrBufs spec0 c (V m c) : sProp 𝕄)
      = iprop((((c : Thread nD τ).loc main_v0) ↦{fullShare} V m c main_v0)
          ∗ (((c : Thread nD τ).loc main_v1) ↦{fullShare} V m c main_v1)) := by
    unfold Pipeline.arrBufs
    rw [himg, bigSep_insert (by decide), bigSep_singleton]
    rfl
  rw [harr, bigSep_W0, hbufs]
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-! ## The run and the frame -/

set_option backward.isDefEq.respectTransparency.types false in
/-- From any memory with zero counters every weakly fair execution of @main terminates, and the final state has
    every array of the region at what the pipeline computes from the proof data and every other unscoped buffer as
    the region found it. -/
theorem run_main :
    θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by iintro -; iempintro)
    (hout := fun c => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the label vector, which no window stages and no host operation writes, ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c))
    (run_main m ρ)

end Cert.Kernel.Frame

end
-- ==== Proof.KernelIdealFrame.lean ====
/-
  The run of the one-hot Gram kernel's program, and its frame.

  The program one-hot encodes the label vector on the host (six elementwise operations) and hands the encoding
  `oh : [16384, 64]` to ONE kernel region TWICE: the region's first window walks `oh` by row blocks indexed by the
  grid's first coordinate, its second window walks the SAME array by row blocks indexed by the second coordinate,
  and the third window is the [16384, 16384] result, one 1024 × 1024 block per grid point. Two input windows on one
  array means the region holds that array twice; so the array's full share is dealt in halves, one half to each
  window (both only read it), and the region is entered through the launch theorem that lets the certificate
  say how the buffers behind the arrays are divided among the windows.

  What is proved here, at any float instance: what the body leaves in the result window's buffer at a point (the
  matrix product of the two input blocks), the body's triple, the pipeline's proof data, the body obligation,
  the run of @main with every array of the region at what the pipeline computes and every other buffer as the
  region found it, and from that run the frame: the label vector ends as it was launched.
-/
import proofs.«108739_j89764816486452_1_alg».proof.Proof.Gen.KernelIdeal.Launch
import proofs.«108739_j89764816486452_1_alg».proof.Proof.Gen.KernelIdeal.Skeleton
import proofs.«108739_j89764816486452_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations of the
    one-hot encoding. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the label vector: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The first input window's current buffer holds its block at every point, fetched there or not (where it is not
    fetched the block index has not moved), for any proof data over `V` whose body leaves the block in place. -/
theorem before0_0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The same for the second input window. -/
theorem before0_1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-! ## The body -/

abbrev rIn : Rect S1024x64 := Rect.unit (s := S1024x64) ![0, 0] S1024x64.size inb_S1024x64_S1024x64_0_0
abbrev rOut : Rect S1024x1024 := Rect.unit (s := S1024x1024) ![0, 0] S1024x1024.size inb_S1024x1024_S1024x1024_0_0

/-- What the body leaves in the result window's buffer, from the two input blocks: its one store, of the product of
    the first block with the transposed second. -/
def outBlk (x0 : Vec F S1024x64 .bf16) (x1 : Vec F S1024x64 .bf16) : Vec F S1024x1024 .f32 :=
  View.canon [⟨rOut, k0_pay1 (View.ld x0 rIn) (View.ld x1 rIn)⟩]

/-- The store is of the whole buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs' at contents `x0`, `x1` and the result's at anything: it loads the
    two blocks, loads the result buffer (a value it never uses), stores the product over the whole result buffer,
    and returns with the inputs as they were. -/
theorem sound_kernel (c : Dev nD) (E : Set ℕ) (i : grid0.Coords)
    (arg2 : Memref sig .tc .vmem S1024x64 .bf16) (harg2 : arg2.IsWhole)
    (arg3 : Memref sig .tc .vmem S1024x64 .bf16) (harg3 : arg3.IsWhole)
    (arg4 : Memref sig .tc .vmem S1024x1024 .f32) (harg4 : arg4.IsWhole)
    (x0 : Vec F S1024x64 .bf16) (x1 : Vec F S1024x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk x0 x1)) -∗ K ⟨⟩))
      ⊢ wp frame (wpE (defs₀ (F := F)) Variants.none c none) E
          (cc0__eq_matmul_kernel i arg2 harg2 arg3 harg3 arg4 harg4) K := by
  simp only [cc0__eq_matmul_kernel_eq_skeleton]; unfold cc0__eq_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data on core `c`: the arrays as the region finds them; after the body at point `t` each input's buffer
    at its block and the result's at the product of the two blocks; nothing carried between points and nothing owed;
    the one-hot array's share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := BI.emp
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## The arrays at entry: one array, two readers -/

/-- The two distinct buffers behind the three windows' arrays, each whole, make the region's three holdings: the
    one-hot array's full share splits into its two halves, one per reading window; the result array goes whole to
    the window that writes it. -/
theorem hsplit (c : Dev nD) :
    (Pipeline.arrBufs spec0 c (V m c) : sProp 𝕄) ⊢ (dats m 0 c).arrays ((dats m 0 c).arrAt · 0) := by
  have himg : Finset.univ.image (Pipeline.arrRef spec0) = {main_v0, main_v1} := by decide
  have harr : (dats m 0 c).arrays ((dats m 0 c).arrAt · 0)
      = bigSep Finset.univ fun w : Fin 3 =>
          ((((c : Thread nD τ).loc (Pipeline.arrRef spec0 w)) ↦{(dats m 0 c).share w} (dats m 0 c).arrAt w 0) : sProp 𝕄) := by
    unfold Dat.arrays
    exact bigSep_congr fun w _ => by rw [(arr_whole0 w).set_eq_univ]
  have hbufs : (Pipeline.arrBufs spec0 c (V m c) : sProp 𝕄)
      = iprop((((c : Thread nD τ).loc main_v0) ↦{fullShare} V m c main_v0)
          ∗ (((c : Thread nD τ).loc main_v1) ↦{fullShare} V m c main_v1)) := by
    unfold Pipeline.arrBufs
    rw [himg, bigSep_insert (by decide), bigSep_singleton]
    rfl
  rw [harr, bigSep_W0, hbufs]
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-! ## The run and the frame -/

set_option backward.isDefEq.respectTransparency.types false in
/-- From any memory with zero counters every weakly fair execution of @main terminates, and the final state has
    every array of the region at what the pipeline computes from the proof data and every other unscoped buffer as
    the region found it. -/
theorem run_main :
    θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by iintro -; iempintro)
    (hout := fun c => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the label vector, which no window stages and no host operation writes, ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c))
    (run_main m ρ)

end Cert.KernelIdeal.Frame

end
-- ==== Proof.Gram.lean ====
/-
  The mathematics both programs compute, stated once over the label vector.

  A label vector `z` of 16384 words is one-hot encoded over 64 classes: entry (r, k) is 1 when `z r` is the word
  `k` and 0 otherwise (the unsigned value of the comparison bit). The result is the Gram matrix of the encoding,
  entry (r, s) = Σ_k hot(r, k) · hot(s, k): 1 where the two labels agree on a class below 64, else 0.

  Both printed programs build the encoding by the same four host operations (the labels as a column, the class
  numbers as a row, both spread over [16384, 64], compared) and then convert the bit to a float, the kernel's program
  to bf16 and the reference to f32; over the extended reals a conversion's value does not depend on the format, so one
  lemma, generic in the format, reads either encoding at an index.
-/
import Idealize.ShloMosaic.PureOps.Ideal
import Idealize.ShloMosaic.Lib.ValueIdx
import Idealize.ShloMosaic.Lib.Pipeline.Value

noncomputable section

namespace Cert.Gram

open Idealize.ShloMosaic

/-- Entry (r, k) of the one-hot encoding of `z`, as an extended real. -/
def hot (z : (⟨1, ![16384]⟩ : Shape).Idx → BitVec 32) (r : Fin 16384) (k : Fin 64) : EReal :=
  (((IntOp.cmpi .eq (z (ValueIdx.ix1 r)) (BitVec.ofNat 32 k.val)).toNat : ℝ) : EReal)

/-- The Gram matrix of the encoding: entry (r, s) sums, over the classes, the product of the two rows' entries. -/
def gram (z : (⟨1, ![16384]⟩ : Shape).Idx → BitVec 32) : (⟨2, ![16384, 16384]⟩ : Shape).Idx → EReal :=
  fun i => ∑ k : Fin 64, hot z ⟨(i 0).val, (i 0).isLt⟩ k * hot z ⟨(i 1).val, (i 1).isLt⟩ k

/-- The encoding as the programs build it — labels to a column, classes to a row, both spread, compared, the bit
    converted to format `φ` — read at an index, at the ideal instance. -/
theorem onehot_apply (φ : FTy)
    (hb0 : (⟨1, ![16384]⟩ : Shape).BroadcastsInDim ⟨2, ![16384, 1]⟩ (![0] : Fin 1 → Fin 2))
    (hb1 : (⟨2, ![16384, 1]⟩ : Shape).BroadcastsInDim ⟨2, ![16384, 64]⟩ (![0, 1] : Fin 2 → Fin 2))
    (hb2 : (⟨2, ![1, 64]⟩ : Shape).BroadcastsInDim ⟨2, ![16384, 64]⟩ (![0, 1] : Fin 2 → Fin 2))
    (z : (⟨1, ![16384]⟩ : Shape).Idx → BitVec 32) (j : (⟨2, ![16384, 64]⟩ : Shape).Idx) :
    uitofp (F := Ideal) φ (cmpi .eq
        (broadcastInDim ⟨2, ![16384, 64]⟩ ![0, 1] hb1 (broadcastInDim ⟨2, ![16384, 1]⟩ ![0] hb0 z))
        (broadcastInDim ⟨2, ![16384, 64]⟩ ![0, 1] hb2 (iotaInDim ⟨2, ![1, 64]⟩ 32 1))) j
      = hot z ⟨(j 0).val, (j 0).isLt⟩ ⟨(j 1).val, (j 1).isLt⟩ := by
  -- the column entry the spread labels read at `j`, and the row entry the spread classes read
  let col : (⟨2, ![16384, 1]⟩ : Shape).Idx := fun a => match a with
    | ⟨0, _⟩ => ⟨(j 0).val, (j 0).isLt⟩
    | ⟨1, _⟩ => ⟨0, Nat.one_pos⟩
  let row : (⟨2, ![1, 64]⟩ : Shape).Idx := fun a => match a with
    | ⟨0, _⟩ => ⟨0, Nat.one_pos⟩
    | ⟨1, _⟩ => ⟨(j 1).val, (j 1).isLt⟩
  have h1 : broadcastInDim ⟨2, ![16384, 64]⟩ ![0, 1] hb1 (broadcastInDim ⟨2, ![16384, 1]⟩ ![0] hb0 z) j
      = broadcastInDim ⟨2, ![16384, 1]⟩ ![0] hb0 z col :=
    broadcastInDim_apply _ hb1 _ j col (fun a => match a with
      | ⟨0, _⟩ => by show (j 0).val = if (16384 : Nat) = 1 then 0 else (j 0).val; rw [if_neg (by decide)]
      | ⟨1, _⟩ => by show 0 = if (1 : Nat) = 1 then 0 else (j 1).val; rw [if_pos rfl])
  have h0 : broadcastInDim ⟨2, ![16384, 1]⟩ ![0] hb0 z col = z (ValueIdx.ix1 ⟨(j 0).val, (j 0).isLt⟩) :=
    broadcastInDim_apply _ hb0 z col (ValueIdx.ix1 ⟨(j 0).val, (j 0).isLt⟩) (fun a => match a with
      | ⟨0, _⟩ => by show (j 0).val = if (16384 : Nat) = 1 then 0 else (j 0).val; rw [if_neg (by decide)])
  have h2 : broadcastInDim ⟨2, ![16384, 64]⟩ ![0, 1] hb2 (iotaInDim ⟨2, ![1, 64]⟩ 32 1) j
      = iotaInDim ⟨2, ![1, 64]⟩ 32 1 row :=
    broadcastInDim_apply _ hb2 _ j row (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])
  show (((IntOp.cmpi .eq
      (broadcastInDim ⟨2, ![16384, 64]⟩ ![0, 1] hb1 (broadcastInDim ⟨2, ![16384, 1]⟩ ![0] hb0 z) j)
      (broadcastInDim ⟨2, ![16384, 64]⟩ ![0, 1] hb2 (iotaInDim ⟨2, ![1, 64]⟩ 32 1) j)).toNat : ℝ) : EReal) = _
  rw [h1, h0, h2]
  rfl

end Cert.Gram

end
-- ==== Proof.KernelValue.lean ====
/-
  What the kernel's program leaves in its result array, at the ideal instance: the Gram matrix of the one-hot
  encoding of the labels.

  The region's grid is 16 × 16. At point t = (a, b) the body multiplies rows [1024·a, 1024·a + 1024) of the encoding
  by the transpose of rows [1024·b, 1024·b + 1024): entry (p, q) of the product is Σ_k oh(1024·a + p, k) · oh(1024·b + q, k)
  (the matrix unit's accumulator is the zero splat), and the pipeline writes it back as block (a, b) of the result. That
  is block (a, b) of ONE function of the whole encoding — the Gram matrix — and the 256 blocks tile the result, so the
  result ends holding the Gram matrix; the encoding itself, read at an index, is the comparison bit of the label and the
  class as an extended real.
-/
import proofs.«108739_j89764816486452_1_alg».proof.Proof.KernelIdealFrame
import proofs.«108739_j89764816486452_1_alg».proof.Proof.Gram
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.GramValue

open Cert.KernelIdeal Cert.KernelIdeal.Gen Cert.KernelIdeal.Frame Cert.Gram
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## The body's product at an index -/

theorem lhs_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Row `j 0`, class `k` of the first block; row `j 1`, class `k` of the second. -/
abbrev lblk (j : S1024x1024.Idx) (k : Fin 64) : S1024x64.Idx := fun a => match a with
  | ⟨0, _⟩ => ⟨(j 0).val, (j 0).isLt⟩
  | ⟨1, _⟩ => ⟨k.val, k.isLt⟩
abbrev rblk (j : S1024x1024.Idx) (k : Fin 64) : S1024x64.Idx := fun a => match a with
  | ⟨0, _⟩ => ⟨(j 1).val, (j 1).isLt⟩
  | ⟨1, _⟩ => ⟨k.val, k.isLt⟩

/-- The body's stored value at (p, q): the sum over the classes of the first block's row p times the second block's
    row q — both operands contracted over their class axis, into a zero accumulator. -/
theorem prod_apply (x0 x1 : Vec Ideal S1024x64 .bf16) (j : S1024x1024.Idx) :
    k0_pay1 (F := Ideal) x0 x1 j = ∑ k : Fin 64, x0 (lblk j k) * x1 (rblk j k) := by
  unfold k0_pay1
  show FloatOps.matmul (F := Ideal) dot_S1024x64_S1024x64_S1024x1024_1_1_0_0_n_n none
    (shapeCast S1024x64 (x0 : S1024x64.Idx → Ideal .bf16) shapeCasts_S1024x64_S1024x64)
    (shapeCast S1024x64 (x1 : S1024x64.Idx → Ideal .bf16) shapeCasts_S1024x64_S1024x64)
    (constant S1024x1024 .f32 0x00000000#32) j = _
  rw [shapeCast_self, shapeCast_self, Ideal.matmul_constant_zero_apply,
    ← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx j ((ValueIdx.contrEquiv1 dot_S1024x64_S1024x64_S1024x1024_1_1_0_0_n_n 64 rfl rfl).symm k) = lblk j k := funext fun a => Fin.ext (by
    match a with
    | ⟨0, _⟩ => exact lhs_0 _ _
    | ⟨1, _⟩ => exact (lhs_1 _ _).trans hk)
  have er : dot_S1024x64_S1024x64_S1024x1024_1_1_0_0_n_n.rhsIdx j ((ValueIdx.contrEquiv1 dot_S1024x64_S1024x64_S1024x1024_1_1_0_0_n_n 64 rfl rfl).symm k) = rblk j k := funext fun a => Fin.ext (by
    match a with
    | ⟨0, _⟩ => exact rhs_0 _ _
    | ⟨1, _⟩ => exact (rhs_1 _ _).trans hk)
  rw [el, er]

/-! ## The Gram matrix of an encoding array, and the blocks the points write -/

/-- The Gram matrix of a [16384, 64] array: entry (r, s) is the sum over the 64 columns of row r times row s. -/
def gramOf (a : S16384x64.Idx → EReal) : S16384x16384.Idx → EReal := fun i =>
  ∑ k : Fin 64, a (ValueIdx.ix2 (⟨(i 0).val, (i 0).isLt⟩ : Fin 16384) k) * a (ValueIdx.ix2 (⟨(i 1).val, (i 1).isLt⟩ : Fin 16384) k)

/-- The encoding array as the region finds it, at its literal type. -/
abbrev oh (c : Dev nD) : S16384x64.Idx → EReal := V m c main_v0

theorem hz : (![0, 0] : Fin 2 → Nat) = fun _ => 0 := funext fun a => by fin_cases a <;> rfl

/-- The index maps over the grid: the first window's row block is the result's row block, the second window's row
    block is the result's column block, and both stay at column block 0. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 15 :=
  (by decide +kernel : ∀ t : Fin grid0.N, _)

/-- Every block of the result is some point's. -/
theorem idx_onto : ∀ (q0 : Fin 16) (q1 : Fin 16), ∃ t : Fin cfg0.N, win0_2.index t = ![q0.val, q1.val] :=
  (by decide +kernel : ∀ (q0 : Fin 16) (q1 : Fin 16), ∃ t : Fin grid0.N, win0_2.index t = ![q0.val, q1.val])

/-- What point `t` writes back is block `t` of the Gram matrix of the encoding as the region finds it. -/
theorem flushed_eq (c : Dev nD) (t : Fin cfg0.N) :
    (dats m 0 c).flushed 2 t = ((cfg0.win 2).blk t).view.read (Elt Ideal) (gramOf (V m c main_v0)) := by
  show (cfg0.win 2).cut (grid0.coords t) ((dats m 0 c).after 2 t) = _
  rw [after0_2]
  unfold outBlk
  rw [View.canon_unit_zero hz]
  simp only [View.ld_unit_zero (S := S1024x64) hz]
  obtain ⟨e0, e1, e2, e3, e4, e5⟩ := idx_facts t
  funext j
  refine (prod_apply (iblk m c 0 t) (iblk m c 1 t) j).trans ?_
  show _ = gramOf (V m c main_v0) (((cfg0.win 2).blk t).view.emb j)
  unfold gramOf
  refine Finset.sum_congr rfl fun k _ => ?_
  show oh m c (((cfg0.win 0).blk t).view.emb (lblk j k)) * oh m c (((cfg0.win 1).blk t).view.emb (rblk j k)) = _
  have h0 : ((cfg0.win 0).blk t).view.emb (lblk j k)
      = ValueIdx.ix2 (⟨((((cfg0.win 2).blk t).view.emb j) 0).val, ((((cfg0.win 2).blk t).view.emb j) 0).isLt⟩ : Fin 16384) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 64 + 1 * k.val = k.val; omega
  have h1 : ((cfg0.win 1).blk t).view.emb (rblk j k)
      = ValueIdx.ix2 (⟨((((cfg0.win 2).blk t).view.emb j) 1).val, ((((cfg0.win 2).blk t).view.emb j) 1).isLt⟩ : Fin 16384) k := by
    funext a; apply Fin.ext
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 64 + 1 * k.val = k.val; omega
  rw [h0, h1]

/-- An index of the result is in point `t`'s block iff each coordinate is in the block's range on its axis. -/
theorem mem_blk (t : Fin cfg0.N) (i : S16384x16384.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- The 256 blocks cover the result: entry (r, s) lies in the block of the point whose coordinates are
    (r / 1024, s / 1024). -/
theorem cover (i : S16384x16384.Idx) :
    ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the Gram matrix of the encoding as the region finds it. -/
theorem final (c : Dev nD) : (dats m 0 c).arrAt 2 cfg0.N = gramOf (V m c main_v0) :=
  (dats m 0 c).arrAt_eq_of_cover 2 (gramOf (V m c main_v0)) (fun t _ => flushed_eq m c t) cover

/-! ## The encoding the region finds, and the result over the labels -/

/-- The region finds, in the array both input windows read, the one-hot encoding of the launched labels: the six
    host operations applied in order. -/
theorem V_main_v0 (c : Dev nD) : (V m c main_v0 : S16384x64.Idx → EReal)
    = uitofp (F := Ideal) .bf16 (cmpi .eq
        (broadcastInDim S16384x64 ![0, 1] bcast_S16384x1_S16384x64_0_1
          (broadcastInDim S16384x1 ![0] bcast_S16384_S16384x1_0 (m ((c : Thread nD τ).loc main_arg0))))
        (broadcastInDim S16384x64 ![0, 1] bcast_S1x64_S16384x64_0_1 (iotaInDim S1x64 32 1))) := by
  dsimp only [V, hostOps0]; after_results; rfl

/-- The Gram matrix of the encoding is the Gram matrix over the labels. -/
theorem gramOf_V (c : Dev nD) : gramOf (V m c main_v0) = gram (m ((c : Thread nD τ).loc main_arg0)) := by
  funext i
  unfold gramOf gram
  refine Finset.sum_congr rfl fun k _ => ?_
  rw [V_main_v0, onehot_apply, onehot_apply]

/-- The run, read: the result array ends at the Gram matrix over the launched labels, the labels unchanged. -/
theorem run : θ_run defs (onTc (τ := τ) (main (F := Ideal))) ⟨m, fun _ => 0, ρ⟩ fun r => ∀ c : Dev nD,
      r.2.mem ((c.tc : Thread nD τ).loc main_v1) = gram (m ((c.tc : Thread nD τ).loc main_arg0))
      ∧ r.2.mem ((c.tc : Thread nD τ).loc main_arg0) = m ((c.tc : Thread nD τ).loc main_arg0) :=
  (θ_run defs _ _).mono (fun _ h c =>
    ⟨((h c).1 2).trans ((final m c).trans (gramOf_V m c)),
      ((h c).2 main_arg0 (Pipeline.mem_restRefs_of main_arg0 (by decide) (by decide))).trans (V_main_arg0 m c)⟩)
    (run_main m ρ)

end Cert.KernelIdeal.GramValue

end
-- ==== Proof.RefValue.lean ====
/-
  What the reference leaves in its result array, at the ideal instance: the Gram matrix of the one-hot encoding of the
  labels.

  The reference encodes the labels as the kernel's program does (converting the comparison bit to f32 where the kernel's
  program converts it to bf16: the same extended real), transposes the encoding and multiplies the encoding by its
  transpose with one `dot_general`. Entry (r, s) of that product is Σ_k oh(r, k) · ohᵀ(k, s) = Σ_k oh(r, k) · oh(s, k).
-/
import proofs.«108739_j89764816486452_1_alg».proof.Proof.Gen.ReferenceIdeal.Run
import proofs.«108739_j89764816486452_1_alg».proof.Proof.Gen.ReferenceIdeal.Read
import proofs.«108739_j89764816486452_1_alg».proof.Proof.Gram

noncomputable section

namespace Cert.ReferenceIdeal.GramValue

open Cert.ReferenceIdeal Cert.ReferenceIdeal.Gen Cert.ReferenceIdeal.Read Cert.Gram
open Idealize.ShloMosaic

/-- The reference's encoding at an index is the comparison bit of the label and the class as an extended real. -/
theorem ref_hot (x0 : (⟨S16384, .i32⟩ : BufTy).Contents (Elt Ideal)) (j : S16384x64.Idx) :
    val_main_v0 (F := Ideal) x0 j = hot x0 ⟨(j 0).val, (j 0).isLt⟩ ⟨(j 1).val, (j 1).isLt⟩ :=
  onehot_apply .f32 bcast_S16384_S16384x1_0 bcast_S16384x1_S16384x64_0_1 bcast_S1x64_S16384x64_0_1 x0 j

/-- The reference's product of the encoding with its transpose is the Gram matrix over the labels. -/
theorem ref_gram (x0 : (⟨S16384, .i32⟩ : BufTy).Contents (Elt Ideal)) : val_main_v2 (F := Ideal) x0 = gram x0 := by
  funext i
  rw [val_main_v2_apply]
  unfold gram
  refine Finset.sum_congr rfl fun k _ => ?_
  rw [val_main_v1_apply, ref_hot, ref_hot]

end Cert.ReferenceIdeal.GramValue

end
-- ==== Proof.lean ====
/-
  The certificate of the one-hot Gram kernel against its reference.

  Both programs one-hot encode a vector of 16384 labels over 64 classes and return the [16384, 16384] Gram matrix of
  the encoding, entry (r, s) = Σ_k oh(r, k) · oh(s, k). The kernel's program tiles the product into 16 × 16 blocks of
  1024 × 1024 and hands the encoding to its one region twice (once for the row block, once for the column block); the
  reference multiplies the encoding by its transpose in one host product. Over the extended reals the two results are
  the same function of the labels, entry by entry (Proof/Gram.lean states it; Proof/KernelValue.lean and
  Proof/RefValue.lean bring each program's result to it), with no condition on the labels: a label outside the
  classes encodes as a zero row on both sides.

  The three frames: each program runs to its end, faults nowhere and leaves the label vector as launched — the two
  kernel programs by the region's run (Proof/KernelFrame.lean, Proof/KernelIdealFrame.lean), the reference by the run
  of its eight host operations. The idealized kernel is the kernel's own text read at the ideal instance, so the
  statement that it is a sanctioned idealization has nothing to say.
-/
import proofs.«108739_j89764816486452_1_alg».proof.Defs
import proofs.«108739_j89764816486452_1_alg».proof.Proof.Gen.Kernel
import proofs.«108739_j89764816486452_1_alg».proof.Proof.Gen.KernelIdeal
import proofs.«108739_j89764816486452_1_alg».proof.Proof.Gen.ReferenceIdeal
import proofs.«108739_j89764816486452_1_alg».proof.Proof.Gen.Pre_any_inputs
import proofs.«108739_j89764816486452_1_alg».proof.Proof.Gen.ReferenceIdeal.Run
import proofs.«108739_j89764816486452_1_alg».proof.Proof.Gen.ReferenceIdeal.Read
import proofs.«108739_j89764816486452_1_alg».proof.Proof.KernelFrame
import proofs.«108739_j89764816486452_1_alg».proof.Proof.KernelIdealFrame
import proofs.«108739_j89764816486452_1_alg».proof.Proof.KernelValue
import proofs.«108739_j89764816486452_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the labels both programs end with the Gram matrix over those labels. -/
theorem algebraic : Cert.algebraic_KernelIdeal_ReferenceIdeal := by
  intro m ρ m' ρ' _ hagree
  refine ⟨fun c => Cert.Gram.gram (m ((c.tc : Thread Cert.KernelIdeal.nD Cert.KernelIdeal.τ).loc Cert.KernelIdeal.main_arg0)),
    Cert.KernelIdeal.GramValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.GramValue.ref_gram, hagree c]

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
